-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x3x512x512 : Shape := ⟨4, ![64, 3, 512, 512]⟩
abbrev S_ : Shape := ⟨0, ![]⟩

class Facts : Prop where
  bcast_S_S64x3x512x512 : S_.BroadcastsInDim S64x3x512x512 (![] : Fin 0 → Fin S64x3x512x512.rank)
  reducesTo_S64x3x512x512_S_d0_1_2_3 : S64x3x512x512.ReducesTo [0, 1, 2, 3] S_
  h_S_ : 0 < S_.numel

variable [Facts]

def fn {F : FTy → Type} [FloatOps F] (main_arg0 : FVec F S64x3x512x512 .f32) (main_arg1 : FVec F S64x3x512x512 .f32) : IVec S_ 1 :=
  let main_v0 : FVec F S64x3x512x512 .f32 := Host.absf main_arg0
  let main_cst : FVec F S_ .f32 := constant S_ .f32 0x7F800000#32
  let main_v1 : FVec F S64x3x512x512 .f32 := broadcastInDim S64x3x512x512 ![] bcast_S_S64x3x512x512 main_cst
  let main_v2 : IVec S64x3x512x512 1 := cmpf .olt main_v0 main_v1
  let main_c : IVec S_ 1 := constantI S_ 1 1#1
  let main_v3 : IVec S_ 1 := (fun x v => Host.reduce IntOp.andi x v reducesTo_S64x3x512x512_S_d0_1_2_3 h_S_) main_v2 main_c
  let main_v4 : FVec F S64x3x512x512 .f32 := Host.absf main_arg1
  let main_cst_0 : FVec F S_ .f32 := constant S_ .f32 0x7F800000#32
  let main_v5 : FVec F S64x3x512x512 .f32 := broadcastInDim S64x3x512x512 ![] bcast_S_S64x3x512x512 main_cst_0
  let main_v6 : IVec S64x3x512x512 1 := cmpf .olt main_v4 main_v5
  let main_c_1 : IVec S_ 1 := constantI S_ 1 1#1
  let main_v7 : IVec S_ 1 := (fun x v => Host.reduce IntOp.andi x v reducesTo_S64x3x512x512_S_d0_1_2_3 h_S_) main_v6 main_c_1
  let main_v8 : IVec S_ 1 := andi main_v3 main_v7
  main_v8
-- ==== Kernel.lean ====
abbrev S64x3x512x512 : Shape := ⟨4, ![64, 3, 512, 512]⟩
abbrev S98304x512 : Shape := ⟨2, ![98304, 512]⟩
abbrev S2048x512 : Shape := ⟨2, ![2048, 512]⟩

abbrev nBuf : Space → Nat
  | .hbm => 6
  | .vmem => 6
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S98304x512, .f32⟩
  | .hbm, ⟨3, _⟩ => ⟨S98304x512, .f32⟩
  | .hbm, ⟨4, _⟩ => ⟨S98304x512, .f32⟩
  | .hbm, ⟨5, _⟩ => ⟨S64x3x512x512, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S64x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x3x512x512_S98304x512 : S64x3x512x512.ShapeCasts S98304x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S98304x512_S64x3x512x512 : S98304x512.ShapeCasts S64x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S98304x512.size a
  hwx0_0 : ∀ i : grid0.Coords, EltTy.bits .f32 = 32 ∨ (Rect.block (s := S98304x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S98304x512.size a
  hwx0_1 : ∀ i : grid0.Coords, EltTy.bits .f32 = 32 ∨ (Rect.block (s := S98304x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S98304x512.size a
  hwx0_2 : ∀ i : grid0.Coords, EltTy.bits .f32 = 32 ∨ (Rect.block (s := S98304x512) S2048x512.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x3x512x512 : Shape := ⟨4, ![64, 3, 512, 512]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S64x3x512x512, .f32⟩
  | .hbm, ⟨1, _⟩ => ⟨S64x3x512x512, .f32⟩
  | .hbm, ⟨2, _⟩ => ⟨S_, .f32⟩
  | .hbm, ⟨3, _⟩ => ⟨S64x3x512x512, .f32⟩
  | .hbm, ⟨4, _⟩ => ⟨S64x3x512x512, .i1⟩
  | .hbm, ⟨5, _⟩ => ⟨S_, .f32⟩
  | .hbm, ⟨6, _⟩ => ⟨S64x3x512x512, .f32⟩
  | .hbm, ⟨7, _⟩ => ⟨S64x3x512x512, .i1⟩
  | .hbm, ⟨8, _⟩ => ⟨S_, .f32⟩
  | .hbm, ⟨9, _⟩ => ⟨S64x3x512x512, .f32⟩
  | .hbm, ⟨10, _⟩ => ⟨S64x3x512x512, .f32⟩
  | .hbm, ⟨11, _⟩ => ⟨S_, .f32⟩
  | .hbm, ⟨12, _⟩ => ⟨S64x3x512x512, .f32⟩
  | .hbm, ⟨13, _⟩ => ⟨S64x3x512x512, .f32⟩
  | _, _ => ⟨S64x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_call0_v0 : Ref sig .tc := ⟨.hbm, 9, rfl⟩
abbrev main_v4 : Ref sig .tc := ⟨.hbm, 10, rfl⟩
abbrev main_cst_2 : Ref sig .tc := ⟨.hbm, 11, rfl⟩
abbrev main_call1_v0 : Ref sig .tc := ⟨.hbm, 12, rfl⟩
abbrev main_v5 : Ref sig .tc := ⟨.hbm, 13, rfl⟩

abbrev nD : Nat := 1
abbrev τ : Topo := Topo.v7x

variable {F : FTy → Type} [FloatOps F]

class Facts₀ : Prop where
  bcast_S_S64x3x512x512 : S_.BroadcastsInDim S64x3x512x512 (![] : Fin 0 → Fin S64x3x512x512.rank)

variable [Facts₀]

class Facts : Prop extends Facts₀ where

variable [Facts]
-- ==== Proof.SaltPepper.lean ====
/-
  Salt-and-pepper noise as ONE function of a pixel and of the uniform draw made for it.

  A draw strictly below the lower threshold turns the pixel to pepper (0); otherwise a draw strictly below the
  upper threshold turns it to salt (1); otherwise the pixel is kept. Both thresholds, and the two replacement
  values, stay the binary32 words the two programs print (0x3C23D70A and 0x3CA3D70A for the thresholds,
  0x00000000 and 0x3F800000 for pepper and salt): the same word read on both sides is never evaluated, so nothing
  here depends on which number a word denotes, nor on the pixel or the draw being finite. The comparison is the
  ordered "less than", the same one in both programs.

  The noise acts entry by entry, so it does not care under which shape the two arrays are laid out: reading both
  arrays in row-major order under another shape, applying the noise there, and reading the result back under the
  first shape is applying the noise under the first shape. That is the whole distance between a program that
  noises an image as a 64 x 3 x 512 x 512 array and one that noises it as 98304 rows of 512.
-/
import Idealize.ShloMosaic.Lib.Pipeline.Value
import Idealize.ShloMosaic.Lib.ValueIdx

noncomputable section

namespace Cert.SaltPepper

open Idealize.ShloMosaic

variable {F : FTy → Type} [FloatOps F]

/-- One pixel under its draw `u`: pepper if `u` is below the lower threshold, else salt if `u` is below the upper
    one, else the pixel itself. -/
def pixel (img u : F .f32) : F .f32 :=
  Scalar.select (FloatOps.cmpf .olt u (FloatOps.ofBits .f32 0x3C23D70A#32)) (FloatOps.ofBits .f32 0x00000000#32)
    (Scalar.select (FloatOps.cmpf .olt u (FloatOps.ofBits .f32 0x3CA3D70A#32)) (FloatOps.ofBits .f32 0x3F800000#32) img)

/-- The noised image under any shape: each entry of the image under the entry of the draws at the same index. -/
def noised {s : Shape} (img u : s.Idx → F .f32) : s.Idx → F .f32 := fun i => pixel (img i) (u i)

theorem noised_apply {s : Shape} (img u : s.Idx → F .f32) (i : s.Idx) : noised img u i = pixel (img i) (u i) := rfl

/-- Reading the noised image under another shape is noising the two arrays read under that shape: both read the
    entry the row-major correspondence of the two shapes assigns to the index. -/
theorem shapeCast_noised {s t : Shape} (img u : s.Idx → F .f32) (h : s.ShapeCasts t) :
    shapeCast t (noised img u) h = noised (shapeCast t img h) (shapeCast t u h) := rfl

/-- Laying both arrays out under another shape, noising them there and laying the result back is noising them
    where they were: the two row-major correspondences are inverse to one another. -/
theorem noised_relaid {s t : Shape} (img u : s.Idx → F .f32) (h : s.ShapeCasts t) (h' : t.ShapeCasts s) :
    shapeCast s (noised (shapeCast t img h) (shapeCast t u h)) h' = noised img u := by
  rw [← shapeCast_noised, shapeCast_shapeCast]

end Cert.SaltPepper

end
-- ==== Proof.ReferenceNoise.lean ====
/-
  What the reference computes is the noised image.

  The reference compares the draws with each threshold broadcast over the whole 64 x 3 x 512 x 512 array and
  chooses, entry by entry, pepper, salt or the pixel. Read at one index, each broadcast is its scalar and each
  comparison and choice is the scalar comparison and choice at that index: exactly one pixel under its draw.
-/
import proofs.«148609_j38963943309987_1_alg».proof.Proof.Gen.ReferenceIdeal.Read
import proofs.«148609_j38963943309987_1_alg».proof.Proof.SaltPepper

noncomputable section

namespace Cert.ReferenceIdeal.Noise

open Cert.ReferenceIdeal Cert.ReferenceIdeal.Gen Cert.ReferenceIdeal.Read Idealize.ShloMosaic

variable {F : FTy → Type} [FloatOps F]

/-- The reference's result, as a function of the image `x0` and of the draws `x1`, is the noised image: at every
    index the outer choice tests the draw against the lower threshold and the inner one against the upper. -/
theorem result_eq (x0 x1 : (⟨S64x3x512x512, .f32⟩ : BufTy).Contents (Elt F)) :
    val_main_v5 (F := F) x0 x1 = Cert.SaltPepper.noised x0 x1 := by
  funext i
  rw [val_main_v5_apply, val_main_v1_apply, val_main_v0_apply, val_main_cst_apply, val_main_call1_v0_apply,
    val_main_cst_2_apply, val_main_v4_apply, val_main_v3_apply, val_main_v2_apply, val_main_cst_0_apply,
    val_main_call0_v0_apply, val_main_cst_1_apply]
  rfl

end Cert.ReferenceIdeal.Noise

end
-- ==== Proof.KernelNoise.lean ====
/-
  What the kernel leaves in its result is the noised image.

  The program lays the image and the draws out as 98304 rows of 512, runs the body over 48 blocks of 2048 whole
  rows each, and lays the 98304 x 512 result back out as 64 x 3 x 512 x 512.

  * The body loads the draws' block and the image's block, and stores, entry by entry, one pixel under its draw:
    its one store is the noise applied to the two blocks.
  * Point `t` reads block `t` of both row arrays and writes block `t` of the result: the three index maps are the
    same map, `t ↦ (t, 0)`. So what point `t` writes back is block `t` of the noise applied to the two whole row
    arrays.
  * Row `r` lies in the block of point `r / 2048`, and the 48 blocks exhaust the 98304 rows: the result array, after
    the last point, IS the noise applied to the two row arrays.
  * The two row arrays are the arguments read in row-major order under the 98304 x 512 shape, and the program's
    result is the result array read back under the 64 x 3 x 512 x 512 shape. The noise acts entry by entry, so the two
    re-layings cancel and the program's result is the noise applied to its two arguments.
-/
import proofs.«148609_j38963943309987_1_alg».proof.Proof.Gen.KernelIdeal.Frame
import proofs.«148609_j38963943309987_1_alg».proof.Proof.SaltPepper
import Idealize.ShloMosaic.Lib.Pipeline.Value
import Idealize.ShloMosaic.Lib.StableHlo.Run

noncomputable section

namespace Cert.KernelIdeal.Noise

open Cert.KernelIdeal Cert.KernelIdeal.Gen Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-! ## The body -/

/-- Every access of the body starts at row 0, column 0 of its block. -/
theorem origin : (![0, 0] : Fin 2 → Nat) = fun _ => 0 := funext fun a => by fin_cases a <;> rfl

/-- The body's one store, from the draws' block `u` (loaded first) and the image's block `img`: the noise applied to
    the two blocks. The body's two casts are casts of a 2048 x 512 block to its own shape. -/
theorem body_eq (u img : Vec F S2048x512 .f32) : k0_pay1 u img = Cert.SaltPepper.noised (s := S2048x512) img u := by
  unfold k0_pay1
  dsimp only
  rw [shapeCast_self, shapeCast_self]
  rfl

/-! ## One point's block -/

/-- The three windows move together: at every point the image's, the draws' and the result's block have the same
    block index on both axes. -/
theorem same_block : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Each of the 48 blocks of rows is some point's block. -/
theorem block_onto : ∀ q : Fin 48, ∃ t : Fin cfg0.N, win0_2.index t = ![q.val, 0] :=
  (by decide +kernel : ∀ q : Fin 48, ∃ t : Fin grid0.N, win0_2.index t = ![q.val, 0])

/-- What point `t` writes back is block `t` of the noise applied to the two row arrays as the region finds them. -/
theorem flushed_eq (c : Dev nD) (t : Fin cfg0.N) :
    (dats m 0 c).flushed 2 t
      = ((cfg0.win 2).blk t).view.read (Elt F) (Cert.SaltPepper.noised (s := S98304x512) (V m c main_v0) (V m c main_v1)) := by
  show (cfg0.win 2).cut (grid0.coords t) ((dats m 0 c).after 2 t) = _
  rw [after0_2]
  unfold out0_2
  rw [View.canon_unit_zero origin]
  simp only [View.ld_unit_zero (S := S2048x512) origin]
  rw [body_eq]
  obtain ⟨e0, e1, e2, e3⟩ := same_block t
  funext j
  show Cert.SaltPepper.pixel (V m c main_v0 (((cfg0.win 0).blk t).view.emb j)) (V m c main_v1 (((cfg0.win 1).blk t).view.emb j))
    = Cert.SaltPepper.pixel (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 512 + 1 * (j 1).val = win0_2.index t (1 : Fin 2) * 512 + 1 * (j 1).val; omega
  have h1 : ((cfg0.win 1).blk t).view.emb j = ((cfg0.win 2).blk t).view.emb j := by
    funext a; apply Fin.ext
    match a with
    | ⟨0, _⟩ => show win0_1.index t (0 : Fin 2) * 2048 + 1 * (j 0).val = win0_2.index t (0 : Fin 2) * 2048 + 1 * (j 0).val; omega
    | ⟨1, _⟩ => show win0_1.index t (1 : Fin 2) * 512 + 1 * (j 1).val = win0_2.index t (1 : Fin 2) * 512 + 1 * (j 1).val; omega
  rw [h0, h1]

/-! ## The whole result array -/

/-- An index of the result array is in point `t`'s block iff each coordinate is in the block's range on its axis. -/
theorem mem_blk (t : Fin cfg0.N) (i : S98304x512.Idx) :
    i ∈ ((cfg0.win 2).blk t).view.set ↔ ∀ a : Fin 2, win0_2.index t a * S2048x512.size a ≤ (i a).val ∧ (i a).val < win0_2.index t a * S2048x512.size a + S2048x512.size a := by
  show i ∈ ((View.whole main_v2).slice (win0_2.rect t)).set ↔ _
  rw [View.set_slice_whole, Rect.mem_set_unit]
  exact Iff.rfl

/-- Every index of the result array is written back by some point: row `r` by the point whose block is `r / 2048`. -/
theorem covered (i : S98304x512.Idx) :
    ∃ t : Fin cfg0.N, (cfg0.win 2).flush t = true ∧ i ∈ ((cfg0.win 2).blk t).view.set := by
  have hi0 : (i 0).val < 98304 := (i 0).isLt
  have hi1 : (i 1).val < 512 := (i 1).isLt
  obtain ⟨t, ht⟩ := block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-- The result array after the last point: the noise applied to the two row arrays. -/
theorem rows_final (c : Dev nD) :
    (dats m 0 c).arrAt 2 cfg0.N = Cert.SaltPepper.noised (s := S98304x512) (V m c main_v0) (V m c main_v1) :=
  (dats m 0 c).arrAt_eq_of_cover 2 _ (fun t _ => flushed_eq m c t) covered

/-! ## Around the region -/

/-- The image's row array is the first argument read in row-major order as 98304 rows of 512. -/
theorem rows_image (c : Dev nD) :
    (V m c main_v0 : S98304x512.Idx → Elt F .f32)
      = shapeCast S98304x512 (m ((c : Thread nD τ).loc main_arg0)) shapeCasts_S64x3x512x512_S98304x512 := by
  show StableHlo.after hostOps0 (fun b => m (c, b)) (Proc.devRef .tc main_v0) = _
  after_results
  rfl

/-- The draws' row array is the second argument read the same way. -/
theorem rows_draws (c : Dev nD) :
    (V m c main_v1 : S98304x512.Idx → Elt F .f32)
      = shapeCast S98304x512 (m ((c : Thread nD τ).loc main_arg1)) shapeCasts_S64x3x512x512_S98304x512 := by
  show StableHlo.after hostOps0 (fun b => m (c, b)) (Proc.devRef .tc main_v1) = _
  after_results
  rfl

/-- The program's result, the result array laid back out as 64 x 3 x 512 x 512, is the noise applied to the two
    arguments. -/
theorem result_eq (c : Dev nD) :
    Pipeline.afterTail₀ cfgs (dats m) 0 (V0 m) [hostOps1] c main_v3
      = Cert.SaltPepper.noised (s := S64x3x512x512) (m ((c : Thread nD τ).loc main_arg0)) (m ((c : Thread nD τ).loc main_arg1)) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = Cert.SaltPepper.noised (s := S98304x512) (V m c main_v0) (V m c main_v1) :=
    (Pipeline.withArrays_arr spec0 launch0.win.arr_inj c _ _ 2).trans (rows_final m c)
  rw [e, rows_image, rows_draws]
  exact Cert.SaltPepper.noised_relaid _ _ _ _

/-! ## The run -/

/-- Every weakly fair execution of the program terminates with its result at the noise applied to its two arguments,
    and with the two arguments as they were: the generated frame run, its result read by `result_eq`. -/
theorem run : θ_run defs (onTc (τ := τ) (main (F := F))) ⟨m, fun _ => 0, ρ⟩ fun r => ∀ c : Dev nD,
      r.2.mem ((c : Thread nD τ).loc main_v3)
        = Cert.SaltPepper.noised (s := S64x3x512x512) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Noise

end
-- ==== Proof.lean ====
/-
  Salt-and-pepper noise on a 64 x 3 x 512 x 512 image: a pipelined kernel against the array expression.

  Both programs take an image and an array of uniform draws of the same shape and return, entry by entry, pepper (0)
  where the draw is below a lower threshold, else salt (1) where it is below an upper threshold, else the pixel. The
  reference does this on the whole four-axis arrays. The kernel lays both arrays out as 98304 rows of 512, noises 48
  blocks of 2048 rows one after another, and lays the result back out. The thresholds and the two replacement values
  are the same binary32 words in both programs, and the comparison is the same ordered "less than".

  Over the extended reals the two results are therefore one function of the arguments, `SaltPepper.noised`: the
  reference's by reading its comparisons and choices at an index (`ReferenceIdeal.Noise.result_eq`), the kernel's
  because each point writes back its block of that function of the two row arrays, the blocks exhaust the rows, and a
  function that acts entry by entry commutes with the change of layout (`KernelIdeal.Noise.run`). No arithmetic is
  done on the entries, so the inputs' finiteness is never used.

  The three frames: the two kernels' are the generated frame certificates; the reference's is its generated run with
  the result forgotten. The idealization rewrote no operation, so there is nothing to preserve.
-/
import proofs.«148609_j38963943309987_1_alg».proof.Defs
import proofs.«148609_j38963943309987_1_alg».proof.Proof.Gen.Kernel
import proofs.«148609_j38963943309987_1_alg».proof.Proof.Gen.Kernel.Skeleton
import proofs.«148609_j38963943309987_1_alg».proof.Proof.Gen.Kernel.Launch
import proofs.«148609_j38963943309987_1_alg».proof.Proof.Gen.Kernel.Points
import proofs.«148609_j38963943309987_1_alg».proof.Proof.Gen.Kernel.Frame
import proofs.«148609_j38963943309987_1_alg».proof.Proof.Gen.KernelIdeal
import proofs.«148609_j38963943309987_1_alg».proof.Proof.Gen.KernelIdeal.Skeleton
import proofs.«148609_j38963943309987_1_alg».proof.Proof.Gen.KernelIdeal.Launch
import proofs.«148609_j38963943309987_1_alg».proof.Proof.Gen.KernelIdeal.Points
import proofs.«148609_j38963943309987_1_alg».proof.Proof.Gen.KernelIdeal.Frame
import proofs.«148609_j38963943309987_1_alg».proof.Proof.Gen.ReferenceIdeal
import proofs.«148609_j38963943309987_1_alg».proof.Proof.Gen.Pre_finite_inputs
import proofs.«148609_j38963943309987_1_alg».proof.Proof.Gen.ReferenceIdeal.Run
import proofs.«148609_j38963943309987_1_alg».proof.Proof.Gen.ReferenceIdeal.Read
import proofs.«148609_j38963943309987_1_alg».proof.Proof.SaltPepper
import proofs.«148609_j38963943309987_1_alg».proof.Proof.ReferenceNoise
import proofs.«148609_j38963943309987_1_alg».proof.Proof.KernelNoise
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference has no kernel: its run, with what it says of the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories that agree on the image and on the draws, both programs end with the noised image. -/
theorem same_result : Cert.algebraic_KernelIdeal_ReferenceIdeal := by
  intro m ρ m' ρ' _ hagree
  refine ⟨_, Cert.KernelIdeal.Noise.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.Noise.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, same_result⟩

end Cert.Proof

end
